-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v46)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v46) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v47) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn {F : FTy → Type} [FloatOps F] (main_arg0 : FVec F S100000x128 .f32) (main_arg1 : IVec S2x1600000 32) (main_arg2 : FVec F S128x64 .f32) (main_arg3 : FVec F S64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x64 .f32 := Host.absf main_arg2
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  main_v13
-- ==== Kernel.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S100000x64 : Shape := ⟨2, ![100000, 64]⟩
abbrev S10000x128 : Shape := ⟨2, ![10000, 128]⟩
abbrev S10000x64 : Shape := ⟨2, ![10000, 64]⟩
abbrev S1x1600000 : Shape := ⟨2, ![1, 1600000]⟩
abbrev S1600000 : Shape := ⟨1, ![1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S1700000x64 : Shape := ⟨2, ![1700000, 64]⟩
abbrev S20000x64 : Shape := ⟨2, ![20000, 64]⟩
abbrev S20000x1 : Shape := ⟨2, ![20000, 1]⟩
abbrev S1x64 : Shape := ⟨2, ![1, 64]⟩

abbrev nBuf : Space → Nat
  | .hbm => 62
  | .vmem => 11
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x64, .f32⟩
  | .hbm, ⟨3, _⟩ => ⟨S64, .f32⟩
  | .hbm, ⟨4, _⟩ => ⟨S100000x64, .f32⟩
  | .hbm, ⟨5, _⟩ => ⟨S1x1600000, .i32⟩
  | .hbm, ⟨6, _⟩ => ⟨S1600000, .i32⟩
  | .hbm, ⟨7, _⟩ => ⟨S1x1600000, .i32⟩
  | .hbm, ⟨8, _⟩ => ⟨S1600000, .i32⟩
  | .hbm, ⟨9, _⟩ => ⟨S100000, .i32⟩
  | .hbm, ⟨10, _⟩ => ⟨S1700000, .i32⟩
  | .hbm, ⟨11, _⟩ => ⟨S1700000, .i32⟩
  | .hbm, ⟨12, _⟩ => ⟨S_, .f32⟩
  | .hbm, ⟨13, _⟩ => ⟨S1700000, .f32⟩
  | .hbm, ⟨14, _⟩ => ⟨S_, .f32⟩
  | .hbm, ⟨15, _⟩ => ⟨S100000, .f32⟩
  | .hbm, ⟨16, _⟩ => ⟨S1700000x1, .i32⟩
  | .hbm, ⟨17, _⟩ => ⟨S100000, .f32⟩
  | .hbm, ⟨18, _⟩ => ⟨S_, .f32⟩
  | .hbm, ⟨19, _⟩ => ⟨S100000, .f32⟩
  | .hbm, ⟨20, _⟩ => ⟨S100000, .i1⟩
  | .hbm, ⟨21, _⟩ => ⟨S100000, .f32⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S_, .i32⟩
  | .hbm, ⟨26, _⟩ => ⟨S1700000, .i32⟩
  | .hbm, ⟨27, _⟩ => ⟨S1700000, .i1⟩
  | .hbm, ⟨28, _⟩ => ⟨S_, .i32⟩
  | .hbm, ⟨29, _⟩ => ⟨S1700000, .i32⟩
  | .hbm, ⟨30, _⟩ => ⟨S1700000, .i32⟩
  | .hbm, ⟨31, _⟩ => ⟨S1700000, .i32⟩
  | .hbm, ⟨32, _⟩ => ⟨S1700000x1, .i32⟩
  | .hbm, ⟨33, _⟩ => ⟨S1700000, .f32⟩
  | .hbm, ⟨34, _⟩ => ⟨S_, .i32⟩
  | .hbm, ⟨35, _⟩ => ⟨S1700000, .i32⟩
  | .hbm, ⟨36, _⟩ => ⟨S1700000, .i1⟩
  | .hbm, ⟨37, _⟩ => ⟨S_, .i32⟩
  | .hbm, ⟨38, _⟩ => ⟨S1700000, .i32⟩
  | .hbm, ⟨39, _⟩ => ⟨S1700000, .i32⟩
  | .hbm, ⟨40, _⟩ => ⟨S1700000, .i32⟩
  | .hbm, ⟨41, _⟩ => ⟨S1700000x1, .i32⟩
  | .hbm, ⟨42, _⟩ => ⟨S1700000, .f32⟩
  | .hbm, ⟨43, _⟩ => ⟨S1700000, .f32⟩
  | .hbm, ⟨44, _⟩ => ⟨S_, .i32⟩
  | .hbm, ⟨45, _⟩ => ⟨S1700000, .i32⟩
  | .hbm, ⟨46, _⟩ => ⟨S1700000, .i1⟩
  | .hbm, ⟨47, _⟩ => ⟨S_, .i32⟩
  | .hbm, ⟨48, _⟩ => ⟨S1700000, .i32⟩
  | .hbm, ⟨49, _⟩ => ⟨S1700000, .i32⟩
  | .hbm, ⟨50, _⟩ => ⟨S1700000, .i32⟩
  | .hbm, ⟨51, _⟩ => ⟨S1700000x1, .i32⟩
  | .hbm, ⟨52, _⟩ => ⟨S1700000x64, .f32⟩
  | .hbm, ⟨53, _⟩ => ⟨S1700000x1, .f32⟩
  | .hbm, ⟨54, _⟩ => ⟨S1700000x64, .f32⟩
  | .hbm, ⟨55, _⟩ => ⟨S_, .f32⟩
  | .hbm, ⟨56, _⟩ => ⟨S100000x64, .f32⟩
  | .hbm, ⟨57, _⟩ => ⟨S1700000x1, .i32⟩
  | .hbm, ⟨58, _⟩ => ⟨S100000x64, .f32⟩
  | .hbm, ⟨59, _⟩ => ⟨S1x64, .f32⟩
  | .hbm, ⟨60, _⟩ => ⟨S100000x64, .f32⟩
  | .hbm, ⟨61, _⟩ => ⟨S100000x64, .f32⟩
  | .local _ .vmem, ⟨0, _⟩ => ⟨S10000x128, .f32⟩
  | .local _ .vmem, ⟨1, _⟩ => ⟨S10000x128, .f32⟩
  | .local _ .vmem, ⟨2, _⟩ => ⟨S128x64, .f32⟩
  | .local _ .vmem, ⟨3, _⟩ => ⟨S10000x64, .f32⟩
  | .local _ .vmem, ⟨4, _⟩ => ⟨S10000x64, .f32⟩
  | .local _ .vmem, ⟨5, _⟩ => ⟨S20000x64, .f32⟩
  | .local _ .vmem, ⟨6, _⟩ => ⟨S20000x64, .f32⟩
  | .local _ .vmem, ⟨7, _⟩ => ⟨S20000x1, .f32⟩
  | .local _ .vmem, ⟨8, _⟩ => ⟨S20000x1, .f32⟩
  | .local _ .vmem, ⟨9, _⟩ => ⟨S20000x64, .f32⟩
  | .local _ .vmem, ⟨10, _⟩ => ⟨S20000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_2 : Ref sig .tc := ⟨.hbm, 22, rfl⟩
abbrev main_v15 : Ref sig .tc := ⟨.hbm, 23, rfl⟩
abbrev main_v16 : Ref sig .tc := ⟨.hbm, 24, rfl⟩
abbrev main_c : Ref sig .tc := ⟨.hbm, 25, rfl⟩
abbrev main_v17 : Ref sig .tc := ⟨.hbm, 26, rfl⟩
abbrev main_v18 : Ref sig .tc := ⟨.hbm, 27, rfl⟩
abbrev main_c_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_c_4 : Ref sig .tc := ⟨.hbm, 34, rfl⟩
abbrev main_v24 : Ref sig .tc := ⟨.hbm, 35, rfl⟩
abbrev main_v25 : Ref sig .tc := ⟨.hbm, 36, rfl⟩
abbrev main_c_5 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_c_6 : Ref sig .tc := ⟨.hbm, 44, rfl⟩
abbrev main_v32 : Ref sig .tc := ⟨.hbm, 45, rfl⟩
abbrev main_v33 : Ref sig .tc := ⟨.hbm, 46, rfl⟩
abbrev main_c_7 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_cst_8 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![85], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S20000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S20000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S20000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S10000x64_S10000x64_0_0 : ∀ a, (![0, 0] : Fin 2 → Nat) a + S10000x64.size a ≤ S10000x64.size a
  h_S10000x64 : 0 < S10000x64.numel
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S20000x1_S20000x1_0_0 : ∀ a, (![0, 0] : Fin 2 → Nat) a + S20000x1.size a ≤ S20000x1.size a
  h_S20000x1 : 0 < S20000x1.numel
  shapeCasts_S20000x1_S20000x1 : S20000x1.ShapeCasts S20000x1
  broadcasts_S20000x1_S20000x64 : S20000x1.Broadcasts S20000x64
  inb_S20000x64_S20000x64_0_0 : ∀ a, (![0, 0] : Fin 2 → Nat) a + S20000x64.size a ≤ S20000x64.size a
  h_S20000x64 : 0 < S20000x64.numel
  shapeCasts_S20000x64_S20000x64 : S20000x64.ShapeCasts S20000x64
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  dot_S10000x128_S128x64_S10000x64_1_0_0_1_n_n_wf : DotDims.WF S10000x128 S128x64 S10000x64 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x64.size a ≤ S100000x64.size a
  hwx0_2 : ∀ i : grid0.Coords, EltTy.bits .f32 = 32 ∨ (Rect.block (s := S100000x64) S10000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S20000x64.size a ≤ S1700000x64.size a
  hwx1_0 : ∀ i : grid1.Coords, EltTy.bits .f32 = 32 ∨ (Rect.block (s := S1700000x64) S20000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S20000x1.size a ≤ S1700000x1.size a
  hwx1_1 : ∀ i : grid1.Coords, EltTy.bits .f32 = 32 ∨ (Rect.block (s := S1700000x1) S20000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S20000x64.size a ≤ S1700000x64.size a
  hwx1_2 : ∀ i : grid1.Coords, EltTy.bits .f32 = 32 ∨ (Rect.block (s := S1700000x64) S20000x64.size (cc1_transform_2 i) (hinb1_2 i)).WholeWords (EltTy.packing .f32)

variable [Facts₀]

def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S10000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v38) S20000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v39) S20000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v40) S20000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S100000x64 : Shape := ⟨2, ![100000, 64]⟩
abbrev S1x1600000 : Shape := ⟨2, ![1, 1600000]⟩
abbrev S1600000 : Shape := ⟨1, ![1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S1700000x64 : Shape := ⟨2, ![1700000, 64]⟩
abbrev S1x64 : Shape := ⟨2, ![1, 64]⟩

abbrev nBuf : Space → Nat
  | .hbm => 63
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x64, .f32⟩
  | .hbm, ⟨3, _⟩ => ⟨S64, .f32⟩
  | .hbm, ⟨4, _⟩ => ⟨S100000x64, .f32⟩
  | .hbm, ⟨5, _⟩ => ⟨S1x1600000, .i32⟩
  | .hbm, ⟨6, _⟩ => ⟨S1600000, .i32⟩
  | .hbm, ⟨7, _⟩ => ⟨S1x1600000, .i32⟩
  | .hbm, ⟨8, _⟩ => ⟨S1600000, .i32⟩
  | .hbm, ⟨9, _⟩ => ⟨S100000, .i32⟩
  | .hbm, ⟨10, _⟩ => ⟨S1700000, .i32⟩
  | .hbm, ⟨11, _⟩ => ⟨S1700000, .i32⟩
  | .hbm, ⟨12, _⟩ => ⟨S_, .f32⟩
  | .hbm, ⟨13, _⟩ => ⟨S1700000, .f32⟩
  | .hbm, ⟨14, _⟩ => ⟨S_, .f32⟩
  | .hbm, ⟨15, _⟩ => ⟨S100000, .f32⟩
  | .hbm, ⟨16, _⟩ => ⟨S1700000x1, .i32⟩
  | .hbm, ⟨17, _⟩ => ⟨S100000, .f32⟩
  | .hbm, ⟨18, _⟩ => ⟨S_, .f32⟩
  | .hbm, ⟨19, _⟩ => ⟨S100000, .f32⟩
  | .hbm, ⟨20, _⟩ => ⟨S100000, .i1⟩
  | .hbm, ⟨21, _⟩ => ⟨S100000, .f32⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S_, .i32⟩
  | .hbm, ⟨26, _⟩ => ⟨S1700000, .i32⟩
  | .hbm, ⟨27, _⟩ => ⟨S1700000, .i1⟩
  | .hbm, ⟨28, _⟩ => ⟨S_, .i32⟩
  | .hbm, ⟨29, _⟩ => ⟨S1700000, .i32⟩
  | .hbm, ⟨30, _⟩ => ⟨S1700000, .i32⟩
  | .hbm, ⟨31, _⟩ => ⟨S1700000, .i32⟩
  | .hbm, ⟨32, _⟩ => ⟨S1700000x1, .i32⟩
  | .hbm, ⟨33, _⟩ => ⟨S1700000, .f32⟩
  | .hbm, ⟨34, _⟩ => ⟨S_, .i32⟩
  | .hbm, ⟨35, _⟩ => ⟨S1700000, .i32⟩
  | .hbm, ⟨36, _⟩ => ⟨S1700000, .i1⟩
  | .hbm, ⟨37, _⟩ => ⟨S_, .i32⟩
  | .hbm, ⟨38, _⟩ => ⟨S1700000, .i32⟩
  | .hbm, ⟨39, _⟩ => ⟨S1700000, .i32⟩
  | .hbm, ⟨40, _⟩ => ⟨S1700000, .i32⟩
  | .hbm, ⟨41, _⟩ => ⟨S1700000x1, .i32⟩
  | .hbm, ⟨42, _⟩ => ⟨S1700000, .f32⟩
  | .hbm, ⟨43, _⟩ => ⟨S1700000, .f32⟩
  | .hbm, ⟨44, _⟩ => ⟨S_, .i32⟩
  | .hbm, ⟨45, _⟩ => ⟨S1700000, .i32⟩
  | .hbm, ⟨46, _⟩ => ⟨S1700000, .i1⟩
  | .hbm, ⟨47, _⟩ => ⟨S_, .i32⟩
  | .hbm, ⟨48, _⟩ => ⟨S1700000, .i32⟩
  | .hbm, ⟨49, _⟩ => ⟨S1700000, .i32⟩
  | .hbm, ⟨50, _⟩ => ⟨S1700000, .i32⟩
  | .hbm, ⟨51, _⟩ => ⟨S1700000x1, .i32⟩
  | .hbm, ⟨52, _⟩ => ⟨S1700000x64, .f32⟩
  | .hbm, ⟨53, _⟩ => ⟨S1700000x1, .f32⟩
  | .hbm, ⟨54, _⟩ => ⟨S1700000x64, .f32⟩
  | .hbm, ⟨55, _⟩ => ⟨S1700000x64, .f32⟩
  | .hbm, ⟨56, _⟩ => ⟨S_, .f32⟩
  | .hbm, ⟨57, _⟩ => ⟨S100000x64, .f32⟩
  | .hbm, ⟨58, _⟩ => ⟨S1700000x1, .i32⟩
  | .hbm, ⟨59, _⟩ => ⟨S100000x64, .f32⟩
  | .hbm, ⟨60, _⟩ => ⟨S1x64, .f32⟩
  | .hbm, ⟨61, _⟩ => ⟨S100000x64, .f32⟩
  | .hbm, ⟨62, _⟩ => ⟨S100000x64, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_2 : Ref sig .tc := ⟨.hbm, 22, rfl⟩
abbrev main_v15 : Ref sig .tc := ⟨.hbm, 23, rfl⟩
abbrev main_v16 : Ref sig .tc := ⟨.hbm, 24, rfl⟩
abbrev main_c : Ref sig .tc := ⟨.hbm, 25, rfl⟩
abbrev main_v17 : Ref sig .tc := ⟨.hbm, 26, rfl⟩
abbrev main_v18 : Ref sig .tc := ⟨.hbm, 27, rfl⟩
abbrev main_c_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_c_4 : Ref sig .tc := ⟨.hbm, 34, rfl⟩
abbrev main_v24 : Ref sig .tc := ⟨.hbm, 35, rfl⟩
abbrev main_v25 : Ref sig .tc := ⟨.hbm, 36, rfl⟩
abbrev main_c_5 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_c_6 : Ref sig .tc := ⟨.hbm, 44, rfl⟩
abbrev main_v32 : Ref sig .tc := ⟨.hbm, 45, rfl⟩
abbrev main_v33 : Ref sig .tc := ⟨.hbm, 46, rfl⟩
abbrev main_c_7 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_cst_8 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  dot_S100000x128_S128x64_S100000x64_1_0_0_1_n_n_wf : DotDims.WF S100000x128 S128x64 S100000x64 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1

variable [Facts₀]

def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf

class Facts : Prop extends Facts₀ where

variable [Facts]
-- ==== Proof.LibDotRowsCols.lean ====
/-
  A product of an array of rows with an array of columns, read at one entry.

  For dimension numbers that contract the left operand's axis 1 with the right operand's axis 0, keep the left
  operand's axis 0 and the right operand's axis 1, and batch nothing — the plain product  l · w  of an [n × K] array
  with a [K × c] array — the operand indices at result entry (r, v) and contraction position q are (r, q) and (q, v).
  So both the accumulate-into-zero `tpu.matmul` and the host's `dot_general` are, at the ideal values, the entry's
  plain sum  ∑ q < K, l (r, q) · w (q, v)  over the shared axis: the same extended real whatever the number of rows of
  the left operand. This identifies a product computed a block of the left operand's rows at a time with the whole
  product.
-/
import Idealize.ShloMosaic.PureOps.Ideal.Laws
import Idealize.ShloMosaic.Lib.ValueIdx

noncomputable section

open scoped BigOperators

namespace Cert.Lib.DotRowsCols

open Idealize.ShloMosaic Idealize.ShloMosaic.ValueIdx

variable {n K c : Nat}

/-- Dimension numbers of a rows-by-columns product [n, K] × [K, c] → [n, c]: contract left axis 1 with right axis 0,
    result rows from the left operand's rows, result columns from the right operand's columns, no batch axis. -/
structure RowsCols (d : DotDims ⟨2, ![n, K]⟩ ⟨2, ![K, c]⟩ ⟨2, ![n, c]⟩) : Prop where
  lc : d.lhsContracting = [1]
  rc : d.rhsContracting = [0]
  ln : d.lhsNonContracting = [0]
  rn : d.rhsNonContracting = [1]
  lb : d.lhsBatch = []
  rb : d.rhsBatch = []

variable {d : DotDims ⟨2, ![n, K]⟩ ⟨2, ![K, c]⟩ ⟨2, ![n, c]⟩}

/-- Reading a multi-index at two equal positions gives the same coordinate. -/
private theorem val_congr {s : Shape} (j : s.Idx) (p q : Nat) (hp : p < s.rank) (hq : q < s.rank) (h : p = q) :
    (j ⟨p, hp⟩).val = (j ⟨q, hq⟩).val := by subst h; rfl

/-- One axis is contracted. -/
theorem RowsCols.rank_contr (h : RowsCols d) : d.contr.rank = 1 := by rw [d.rank_contr, h.lc]; rfl

/-- The contracted axis has the shared length K. -/
theorem RowsCols.size_contr (h : RowsCols d) : d.contr.size ⟨0, by rw [h.rank_contr]; exact Nat.one_pos⟩ = K := by
  have := d.size_contr 0 (by rw [h.lc]; exact Nat.one_pos)
  rw [this]; simp only [h.lc]; rfl

/-- The left operand's row is the result's row. -/
theorem RowsCols.lhs_row (h : RowsCols d) (j : (⟨2, ![n, c]⟩ : Shape).Idx) (k : d.contr.Idx) :
    (d.lhsIdx j k 0).val = (j 0).val := by
  unfold DotDims.lhsIdx
  rw [dif_neg (by rw [h.lb]; exact List.not_mem_nil), dif_pos (by rw [h.ln]; exact List.mem_singleton.mpr rfl)]
  simp only [Fin.val_cast]
  exact val_congr j _ _ _ _ (by simp [h.lb, h.ln])

/-- The left operand's column is the contraction position. -/
theorem RowsCols.lhs_col (h : RowsCols d) (j : (⟨2, ![n, c]⟩ : Shape).Idx) (k : d.contr.Idx) :
    (d.lhsIdx j k 1).val = (k ⟨0, by rw [h.rank_contr]; exact Nat.one_pos⟩).val :=
  d.lhsIdx_val_of_single h.lc j k

/-- The right operand's row is the contraction position. -/
theorem RowsCols.rhs_row (h : RowsCols d) (j : (⟨2, ![n, c]⟩ : Shape).Idx) (k : d.contr.Idx) :
    (d.rhsIdx j k 0).val = (k ⟨0, by rw [h.rank_contr]; exact Nat.one_pos⟩).val :=
  d.rhsIdx_val_of_single h.rc j k

/-- The right operand's column is the result's column: its axis 1 is kept, and comes after the left operand's one
    kept axis among the result's axes. -/
theorem RowsCols.rhs_col (h : RowsCols d) (j : (⟨2, ![n, c]⟩ : Shape).Idx) (k : d.contr.Idx) :
    (d.rhsIdx j k 1).val = (j 1).val := by
  unfold DotDims.rhsIdx
  rw [dif_neg (by rw [h.rb]; exact List.not_mem_nil), dif_pos (by rw [h.rn]; exact List.mem_singleton.mpr rfl)]
  simp only [Fin.val_cast]
  exact val_congr j _ _ _ _ (by simp [h.lb, h.ln, h.rn])

/-- The contraction's sum, re-indexed by the shared axis: ∑ q < K, l (r, q) · w (q, v). -/
theorem RowsCols.sum_eq (h : RowsCols d) (l : (⟨2, ![n, K]⟩ : Shape).Idx → EReal) (w : (⟨2, ![K, c]⟩ : Shape).Idx → EReal)
    (j : (⟨2, ![n, c]⟩ : Shape).Idx) :
    ∑ k : d.contr.Idx, l (d.lhsIdx j k) * w (d.rhsIdx j k) = ∑ q : Fin K, l (ix2 (j 0) q) * w (ix2 q (j 1)) := by
  -- the one contracted axis, of length K, is indexed by Fin K
  rw [← Equiv.sum_comp (contrEquiv1 d K h.rank_contr h.size_contr).symm]
  refine Finset.sum_congr rfl fun q _ => ?_
  have hk := contrEquiv1_symm_val d K h.rank_contr h.size_contr q
  -- left operand at (result row, q)
  have e1 : d.lhsIdx j ((contrEquiv1 d K h.rank_contr h.size_contr).symm q) = ix2 (j 0) q := by
    funext a
    match a with
    | ⟨0, _⟩ => exact Fin.ext (h.lhs_row j _)
    | ⟨1, _⟩ => exact Fin.ext ((h.lhs_col j _).trans hk)
  -- right operand at (q, result column)
  have e2 : d.rhsIdx j ((contrEquiv1 d K h.rank_contr h.size_contr).symm q) = ix2 q (j 1) := by
    funext a
    match a with
    | ⟨0, _⟩ => exact Fin.ext ((h.rhs_row j _).trans hk)
    | ⟨1, _⟩ => exact Fin.ext (h.rhs_col j _)
  exact congrArg₂ (· * ·) (congrArg l e1) (congrArg w e2)

/-- `tpu.matmul` into the zero accumulator, at an entry, at the ideal values (operands of any float formats). -/
theorem RowsCols.matmul_zero_apply {φ₁ φ₂ : FTy} (h : RowsCols d) (prec : Option ContractPrecision)
    (l : FVec Ideal ⟨2, ![n, K]⟩ φ₁) (w : FVec Ideal ⟨2, ![K, c]⟩ φ₂) (j : (⟨2, ![n, c]⟩ : Shape).Idx) :
    matmul (F := Ideal) d prec l w (constant ⟨2, ![n, c]⟩ .f32 0x00000000#32) j
      = ∑ q : Fin K, l (ix2 (j 0) q) * w (ix2 q (j 1)) :=
  (Ideal.matmul_constant_zero_apply d prec l w j).trans (h.sum_eq l w j)

/-- The host's `dot_general`, at an entry, at the ideal values. -/
theorem RowsCols.dotGeneral_apply {φ₁ φ₂ : FTy} (h : RowsCols d) (prec : Option ContractPrecision)
    (l : FVec Ideal ⟨2, ![n, K]⟩ φ₁) (w : FVec Ideal ⟨2, ![K, c]⟩ φ₂) (j : (⟨2, ![n, c]⟩ : Shape).Idx) :
    Host.dotGeneral (F := Ideal) d prec l w j = ∑ q : Fin K, l (ix2 (j 0) q) * w (ix2 q (j 1)) :=
  (Ideal.dotGeneral_apply d prec .single l w j).trans (h.sum_eq l w j)

end Cert.Lib.DotRowsCols

end
-- ==== Proof.MatmulRegion.lean ====
/-
  The first pallas_call, read as a value at the ideal instance.

  The call tiles the rows of x into ten blocks of 10000 rows and, at each grid point, stores the product of that
  block of rows with the whole of W. A change of float format is the identity on the extended reals and the product
  accumulates into zero, so the stored block holds, at row r and column v, the sum over the shared axis
  ∑ q < 128, x (10000·t + r, q) · W (q, v). The ten row blocks tile the [100000, 64] result, so after the region the
  result array is the plain product x · W, entry by entry — whatever the contents `V` the region is entered from.
-/
import proofs.«181490_j3607772529056_1_alg».proof.Proof.Gen.KernelIdeal.Frame
import proofs.«181490_j3607772529056_1_alg».proof.Proof.LibDotRowsCols
import Idealize.ShloMosaic.Lib.Pipeline.Value
import Idealize.ShloMosaic.Lib.ValueIdx

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.KernelIdeal.MatmulRegion

open Cert.KernelIdeal Cert.KernelIdeal.Gen Cert.Lib.DotRowsCols

variable (V : (c : Dev nD) → (b : Ref sig .tc) → Buf (Elt Ideal) ((c : Thread nD τ).loc b))

/-- The plain product of an array of 100000 rows of length 128 with a [128, 64] array, entry by entry. -/
abbrev rowsTimesCols (x : S100000x128.Idx → EReal) (w : S128x64.Idx → EReal) : S100000x64.Idx → EReal :=
  fun j => ∑ q : Fin 128, x (ix2 (j 0) q) * w (ix2 q (j 1))

theorem zero_offsets : (![0, 0] : Fin 2 → Nat) = fun _ => 0 := funext fun a => by fin_cases a <;> rfl

/-- The block product's dimension numbers: rows of the left operand against columns of the right. -/
theorem block_dims : RowsCols dot_S10000x128_S128x64_S10000x64_1_0_0_1_n_n := ⟨rfl, rfl, rfl, rfl, rfl, rfl⟩

/-- What one grid point stores, at an entry of its block: the sum over the shared axis of the loaded rows of x against
    the loaded columns of W (the two format changes are the identity at the ideal values). -/
theorem stored_apply (x0 : Vec Ideal S10000x128 .f32) (x1 : Vec Ideal S128x64 .f32) (j : S10000x64.Idx) :
    k0_pay1 x0 x1 j = ∑ q : Fin 128, x0 (ix2 (j 0) q) * x1 (ix2 q (j 1)) := by
  unfold k0_pay1
  exact block_dims.matmul_zero_apply none _ _ j

/-- The printed index maps over the ten grid points: x's window and the result's window move down one block of rows per
    point; W's window stays. -/
theorem block_indices : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point `t` writes back is block `t` of the plain product of the arrays the region finds. -/
theorem flushed_eq (c : Dev nD) (t : Fin cfg0.N) :
    (dat0 V c).flushed 2 t = ((cfg0.win 2).blk t).view.read (Elt Ideal) (rowsTimesCols (V c main_arg0) (V c main_arg2)) := by
  show (cfg0.win 2).cut (grid0.coords t) ((dat0 V c).after 2 t) = _
  rw [after0_2]
  unfold out0_2
  rw [View.canon_unit_zero zero_offsets]
  simp only [View.ld_unit_zero (S := S10000x128) zero_offsets, View.ld_unit_zero (S := S128x64) zero_offsets]
  obtain ⟨e0, e1, e2, e3, e4, e5⟩ := block_indices t
  funext j
  show k0_pay1 (iblk0 V c 0 t) (iblk0 V c 1 t) j = rowsTimesCols (V c main_arg0) (V c main_arg2) (((cfg0.win 2).blk t).view.emb j)
  refine (stored_apply _ _ j).trans ?_
  refine Finset.sum_congr rfl fun q _ => ?_
  have hj0 : (j 0).val < 10000 := (j 0).isLt
  have hj1 : (j 1).val < 64 := (j 1).isLt
  have hq : q.val < 128 := q.isLt
  refine congrArg₂ (· * ·) ?_ ?_
  · show V c main_arg0 (((cfg0.win 0).blk t).view.emb (ix2 (j 0) q)) = V c main_arg0 (ix2 ((((cfg0.win 2).blk t).view.emb j) 0) q)
    refine congrArg _ (funext fun a => Fin.ext ?_)
    match a with
    | ⟨0, _⟩ => show win0_0.index t (0 : Fin 2) * 10000 + 1 * (j 0).val = win0_2.index t (0 : Fin 2) * 10000 + 1 * (j 0).val; omega
    | ⟨1, _⟩ => show win0_0.index t (1 : Fin 2) * 128 + 1 * q.val = q.val; omega
  · show V c main_arg2 (((cfg0.win 1).blk t).view.emb (ix2 q (j 1))) = V c main_arg2 (ix2 q ((((cfg0.win 2).blk t).view.emb j) 1))
    refine congrArg _ (funext fun a => Fin.ext ?_)
    match a with
    | ⟨0, _⟩ => show win0_1.index t (0 : Fin 2) * 128 + 1 * q.val = q.val; omega
    | ⟨1, _⟩ => show win0_1.index t (1 : Fin 2) * 64 + 1 * (j 1).val = win0_2.index t (1 : Fin 2) * 64 + 1 * (j 1).val; omega

/-- An entry of the result array lies in point `t`'s block iff its row is one of that block's 10000 rows. -/
theorem mem_block (t : Fin cfg0.N) (i : S100000x64.Idx) :
    i ∈ ((cfg0.win 2).blk t).view.set ↔ ∀ a : Fin 2, win0_2.index t a * S10000x64.size a ≤ (i a).val ∧ (i a).val < win0_2.index t a * S10000x64.size a + S10000x64.size a := by
  show i ∈ ((View.whole main_v0).slice (win0_2.rect t)).set ↔ _
  rw [View.set_slice_whole, Rect.mem_set_unit]
  exact Iff.rfl

/-- Every entry of the result array is in the block of the point its row falls to: row r belongs to point r / 10000. -/
theorem covered (i : S100000x64.Idx) : ∃ t : Fin cfg0.N, (cfg0.win 2).flush t = true ∧ i ∈ ((cfg0.win 2).blk t).view.set := by
  have hi0 : (i 0).val < 100000 := (i 0).isLt
  have hi1 : (i 1).val < 64 := (i 1).isLt
  have hN : cfg0.N = 10 := N_0
  let t : Fin cfg0.N := ⟨(i 0).val / 10000, by rw [hN]; omega⟩
  obtain ⟨e0, e1, e2, e3, e4, e5⟩ := block_indices t
  have ht : t.val = (i 0).val / 10000 := rfl
  refine ⟨t, flush0_2 t, ?_⟩
  rw [mem_block]
  intro a
  match a with
  | ⟨0, _⟩ => show win0_2.index t (0 : Fin 2) * 10000 ≤ (i 0).val ∧ (i 0).val < win0_2.index t (0 : Fin 2) * 10000 + 10000; omega
  | ⟨1, _⟩ => show win0_2.index t (1 : Fin 2) * 64 ≤ (i 1).val ∧ (i 1).val < win0_2.index t (1 : Fin 2) * 64 + 64; omega

/-- After the region the result array is the plain product of the two arrays the region finds. -/
theorem product_array (c : Dev nD) :
    (dat0 V c).arrAt 2 cfg0.N = rowsTimesCols (V c main_arg0) (V c main_arg2) :=
  (dat0 V c).arrAt_eq_of_cover 2 (rowsTimesCols (V c main_arg0) (V c main_arg2)) (fun t _ => flushed_eq V c t) covered

end Cert.KernelIdeal.MatmulRegion

end
-- ==== Proof.ScaleRegion.lean ====
/-
  The second pallas_call, read as a value at the ideal instance.

  The call tiles the 1700000 gathered rows into 85 blocks of 20000 rows; at each grid point it loads that block of
  rows (64 entries each) and the matching block of the one-column array of edge weights, spreads each row's weight
  along the row, and stores the entrywise product. So the stored block holds, at row r and column v, the gathered entry
  (20000·t + r, v) times the weight of row 20000·t + r. The 85 row blocks tile the [1700000, 64] result, so after the
  region the result array is "every row scaled by its weight", entry by entry — whatever the contents `V` the region
  is entered from.
-/
import proofs.«181490_j3607772529056_1_alg».proof.Proof.Gen.KernelIdeal.Frame
import Idealize.ShloMosaic.Lib.Pipeline.Value
import Idealize.ShloMosaic.Lib.ValueIdx

set_option maxRecDepth 16384

noncomputable section

open Idealize.ShloMosaic Idealize.ShloMosaic.TcCoe Idealize.SL.Sem Idealize.ShloMosaic.ValueIdx
open Idealize.ShloMosaic.Pipeline (Dat)

namespace Cert.KernelIdeal.ScaleRegion

open Cert.KernelIdeal Cert.KernelIdeal.Gen

variable (V : (c : Dev nD) → (b : Ref sig .tc) → Buf (Elt Ideal) ((c : Thread nD τ).loc b))

/-- Every row of a [1700000, 64] array scaled by that row's entry of a one-column array. -/
abbrev rowsScaled (g : S1700000x64.Idx → EReal) (n : S1700000x1.Idx → EReal) : S1700000x64.Idx → EReal :=
  fun j => g j * n (ix2 (j 0) 0)

theorem zero_offsets : (![0, 0] : Fin 2 → Nat) = fun _ => 0 := funext fun a => by fin_cases a <;> rfl

/-- What one grid point stores, at an entry of its block: the loaded entry times its row's loaded weight (the shape
    casts are of a shape to itself; the broadcast reads the weight column at the entry's row). -/
theorem stored_apply (n0 : Vec Ideal S20000x1 .f32) (g0 : Vec Ideal S20000x64 .f32) (j : S20000x64.Idx) :
    k1_pay1 n0 g0 j = g0 j * n0 (ix2 (j 0) 0) := by
  unfold k1_pay1
  simp only [shapeCast_self]
  rw [mulf_apply]
  refine congrArg (g0 j * ·) ?_
  refine broadcastTo_apply n0 _ j (ix2 (j 0) 0) fun a => ?_
  match a with
  | ⟨0, _⟩ => exact (if_neg (show ¬ S20000x1.size (0 : Fin 2) = 1 from by decide)).symm
  | ⟨1, _⟩ => exact (if_pos (show S20000x1.size (1 : Fin 2) = 1 from by decide)).symm

/-- The printed index maps over the 85 grid points: all three windows move down one block of rows per point. -/
theorem block_indices : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0 :=
  (by decide +kernel : ∀ t : Fin grid1.N, _)

/-- What point `t` writes back is block `t` of "every row scaled by its weight" of the arrays the region finds. -/
theorem flushed_eq (c : Dev nD) (t : Fin cfg1.N) :
    (dat1 V c).flushed 2 t = ((cfg1.win 2).blk t).view.read (Elt Ideal) (rowsScaled (V c main_v38) (V c main_v39)) := by
  show (cfg1.win 2).cut (grid1.coords t) ((dat1 V c).after 2 t) = _
  rw [after1_2]
  unfold out1_2
  rw [View.canon_unit_zero zero_offsets]
  simp only [View.ld_unit_zero (S := S20000x1) zero_offsets, View.ld_unit_zero (S := S20000x64) zero_offsets]
  obtain ⟨e0, e1, e2, e3, e4, e5⟩ := block_indices t
  funext j
  show k1_pay1 (iblk1 V c 1 t) (iblk1 V c 0 t) j = rowsScaled (V c main_v38) (V c main_v39) (((cfg1.win 2).blk t).view.emb j)
  refine (stored_apply _ _ j).trans ?_
  have hj0 : (j 0).val < 20000 := (j 0).isLt
  have hj1 : (j 1).val < 64 := (j 1).isLt
  refine congrArg₂ (· * ·) ?_ ?_
  · show V c main_v38 (((cfg1.win 0).blk t).view.emb j) = V c main_v38 (((cfg1.win 2).blk t).view.emb j)
    refine congrArg _ (funext fun a => Fin.ext ?_)
    match a with
    | ⟨0, _⟩ => show win1_0.index t (0 : Fin 2) * 20000 + 1 * (j 0).val = win1_2.index t (0 : Fin 2) * 20000 + 1 * (j 0).val; omega
    | ⟨1, _⟩ => show win1_0.index t (1 : Fin 2) * 64 + 1 * (j 1).val = win1_2.index t (1 : Fin 2) * 64 + 1 * (j 1).val; omega
  · show V c main_v39 (((cfg1.win 1).blk t).view.emb (ix2 (j 0) 0)) = V c main_v39 (ix2 ((((cfg1.win 2).blk t).view.emb j) 0) 0)
    refine congrArg _ (funext fun a => Fin.ext ?_)
    match a with
    | ⟨0, _⟩ => show win1_1.index t (0 : Fin 2) * 20000 + 1 * (j 0).val = win1_2.index t (0 : Fin 2) * 20000 + 1 * (j 0).val; omega
    | ⟨1, _⟩ => show win1_1.index t (1 : Fin 2) * 1 + 1 * 0 = 0; omega

/-- An entry of the result array lies in point `t`'s block iff its row is one of that block's 20000 rows. -/
theorem mem_block (t : Fin cfg1.N) (i : S1700000x64.Idx) :
    i ∈ ((cfg1.win 2).blk t).view.set ↔ ∀ a : Fin 2, win1_2.index t a * S20000x64.size a ≤ (i a).val ∧ (i a).val < win1_2.index t a * S20000x64.size a + S20000x64.size a := by
  show i ∈ ((View.whole main_v40).slice (win1_2.rect t)).set ↔ _
  rw [View.set_slice_whole, Rect.mem_set_unit]
  exact Iff.rfl

/-- Every entry of the result array is in the block of the point its row falls to: row r belongs to point r / 20000. -/
theorem covered (i : S1700000x64.Idx) : ∃ t : Fin cfg1.N, (cfg1.win 2).flush t = true ∧ i ∈ ((cfg1.win 2).blk t).view.set := by
  have hi0 : (i 0).val < 1700000 := (i 0).isLt
  have hi1 : (i 1).val < 64 := (i 1).isLt
  have hN : cfg1.N = 85 := N_1
  let t : Fin cfg1.N := ⟨(i 0).val / 20000, by rw [hN]; omega⟩
  obtain ⟨e0, e1, e2, e3, e4, e5⟩ := block_indices t
  have ht : t.val = (i 0).val / 20000 := rfl
  refine ⟨t, flush1_2 t, ?_⟩
  rw [mem_block]
  intro a
  match a with
  | ⟨0, _⟩ => show win1_2.index t (0 : Fin 2) * 20000 ≤ (i 0).val ∧ (i 0).val < win1_2.index t (0 : Fin 2) * 20000 + 20000; omega
  | ⟨1, _⟩ => show win1_2.index t (1 : Fin 2) * 64 ≤ (i 1).val ∧ (i 1).val < win1_2.index t (1 : Fin 2) * 64 + 64; omega

/-- After the region the result array is the gathered rows, each scaled by its weight. -/
theorem scaled_array (c : Dev nD) :
    (dat1 V c).arrAt 2 cfg1.N = rowsScaled (V c main_v38) (V c main_v39) :=
  (dat1 V c).arrAt_eq_of_cover 2 (rowsScaled (V c main_v38) (V c main_v39)) (fun t _ => flushed_eq V c t) covered

end Cert.KernelIdeal.ScaleRegion

end
-- ==== Proof.HostTerms.lean ====
/-
  The host-side arithmetic of the graph convolution, named once.

  Both programs compute, around the dense product and the row scaling, the same chain of host operations on the edge
  list e : i32[2, 1600000]. Each edge's source and target node are read off the two rows of e and the 100000 self
  loops are appended; a node id below zero is wrapped by adding the node count (the gather then clamps what is still
  out of range); the degree of a node is the number of edges it is the target of; its weight is 1/sqrt(degree) where
  the degree is positive and 0 elsewhere; an edge's weight is the product of its two end nodes' weights; the messages
  are gathered by source node, and summed by target node, with the bias added to every row. These functions are never
  opened by the proofs that use them: both programs are stated over the same names.
-/
import proofs.«181490_j3607772529056_1_alg».proof.KernelIdeal

noncomputable section

namespace Cert.KernelIdeal.HostTerms

open Idealize.ShloMosaic Cert.KernelIdeal

variable {F : FTy → Type} [FloatOps F]
-- the layout facts the operations cite (each a proposition: which instance supplies them makes no difference)
variable [Facts]
open Facts₀ Facts

/-- Source node of every edge: row 0 of the edge list, then the self loops 0 … 99999. -/
def sourceIds (e : (⟨S2x1600000, .i32⟩ : BufTy).Contents (Elt F)) : (⟨S1700000, .i32⟩ : BufTy).Contents (Elt F) :=
  concatenate S1700000 0 [⟨S1600000, (shapeCast _ (extractStridedSlice S1x1600000 ![0, 0] e slices_S2x1600000_S1x1600000_0_0) shapeCasts_S1x1600000_S1600000)⟩, ⟨S100000, (iotaInDim S100000 32 0)⟩] concatenates_S1600000_S100000_S1700000_d0

/-- Target node of every edge: row 1 of the edge list, then the self loops 0 … 99999. -/
def targetIds (e : (⟨S2x1600000, .i32⟩ : BufTy).Contents (Elt F)) : (⟨S1700000, .i32⟩ : BufTy).Contents (Elt F) :=
  concatenate S1700000 0 [⟨S1600000, (shapeCast _ (extractStridedSlice S1x1600000 ![1, 0] e slices_S2x1600000_S1x1600000_1_0) shapeCasts_S1x1600000_S1600000)⟩, ⟨S100000, (iotaInDim S100000 32 0)⟩] concatenates_S1600000_S100000_S1700000_d0

/-- A negative node id counts from the end: 100000 is added to it. -/
def wrapIds (i : (⟨S1700000, .i32⟩ : BufTy).Contents (Elt F)) : (⟨S1700000, .i32⟩ : BufTy).Contents (Elt F) :=
  select (cmpi .slt i (broadcastInDim S1700000 ![] bcast_S_S1700000 (constantI S_ 32 0#32))) (addi i (broadcastInDim S1700000 ![] bcast_S_S1700000 (constantI S_ 32 100000#32))) i

/-- A list of node ids as the one-column index array a gather or scatter takes. -/
def idColumn (i : (⟨S1700000, .i32⟩ : BufTy).Contents (Elt F)) : (⟨S1700000x1, .i32⟩ : BufTy).Contents (Elt F) :=
  broadcastInDim S1700000x1 ![0] bcast_S1700000_S1700000x1_0 i

/-- The degree of every node: one is added at the target of every edge, self loops included. -/
def degree (e : (⟨S2x1600000, .i32⟩ : BufTy).Contents (Elt F)) : (⟨S100000, .f32⟩ : BufTy).Contents (Elt F) :=
  Host.scatterAdd scatter_S100000_S1700000x1_S1700000_n_0_0_1 (broadcastInDim S100000 ![] bcast_S_S100000 (constant S_ .f32 0x00000000#32)) (idColumn (targetIds e)) (broadcastInDim S1700000 ![] bcast_S_S1700000 (constant S_ .f32 0x3F800000#32))

/-- The weight of every node: 1/sqrt(degree) where the degree is positive, 0 elsewhere. -/
def nodeWeight (e : (⟨S2x1600000, .i32⟩ : BufTy).Contents (Elt F)) : (⟨S100000, .f32⟩ : BufTy).Contents (Elt F) :=
  select (cmpf (F := F) .ogt (degree e) (broadcastInDim S100000 ![] bcast_S_S100000 (constant S_ .f32 0x00000000#32))) (Host.rsqrt (degree e)) (broadcastInDim S100000 ![] bcast_S_S100000 (constant S_ .f32 0x00000000#32))

/-- The weight of every edge: the product of its source's and its target's weights. -/
def edgeWeight (e : (⟨S2x1600000, .i32⟩ : BufTy).Contents (Elt F)) : (⟨S1700000, .f32⟩ : BufTy).Contents (Elt F) :=
  mulf (Host.gather gather_S100000_S1700000x1_S1700000_n_0_n_n_0_1_1 (nodeWeight e) (idColumn (wrapIds (sourceIds e)))) (Host.gather gather_S100000_S1700000x1_S1700000_n_0_n_n_0_1_1 (nodeWeight e) (idColumn (wrapIds (targetIds e))))

/-- The edge weights as a one-column array. -/
def weightColumn (e : (⟨S2x1600000, .i32⟩ : BufTy).Contents (Elt F)) : (⟨S1700000x1, .f32⟩ : BufTy).Contents (Elt F) :=
  broadcastInDim S1700000x1 ![0] bcast_S1700000_S1700000x1_0 (edgeWeight e)

/-- The rows of the transformed features gathered by every edge's source node. -/
def gatherRows (xw : (⟨S100000x64, .f32⟩ : BufTy).Contents (Elt F)) (e : (⟨S2x1600000, .i32⟩ : BufTy).Contents (Elt F)) : (⟨S1700000x64, .f32⟩ : BufTy).Contents (Elt F) :=
  Host.gather gather_S100000x64_S1700000x1_S1700000x64_1_0_n_n_0_1_164 xw (idColumn (wrapIds (sourceIds e)))

/-- The messages summed into the rows of their target nodes (given as the list of every edge's target), and the bias added
    to every row. -/
def aggregate (targets : (⟨S1700000, .i32⟩ : BufTy).Contents (Elt F)) (msgs : (⟨S1700000x64, .f32⟩ : BufTy).Contents (Elt F)) (b : (⟨S64, .f32⟩ : BufTy).Contents (Elt F)) : (⟨S100000x64, .f32⟩ : BufTy).Contents (Elt F) :=
  addf (Host.scatterAdd scatter_S100000x64_S1700000x1_S1700000x64_1_0_0_1 (broadcastInDim S100000x64 ![] bcast_S_S100000x64 (constant S_ .f32 0x00000000#32)) (idColumn targets) msgs) (broadcastInDim S100000x64 ![0, 1] bcast_S1x64_S100000x64_0_1 (broadcastInDim S1x64 ![1] bcast_S64_S1x64_1 b))

end Cert.KernelIdeal.HostTerms

end
-- ==== Proof.FoldRead.lean ====
/-
  The kernel program's result, read back to its arguments at the ideal instance.

  Between its two pallas_calls and after the second, the program runs plain host operations. Read from whatever the
  buffers hold when a stretch is entered, each stretch's results are the host-side functions of the graph convolution
  applied to the buffers it reads: the stretches before the second call compute, from the edge list and the first call's
  result, the gathered rows and the column of edge weights; the stretch after it sums the second call's result into the
  target nodes' rows and adds the bias. The first call leaves the product x · W in its result array and the second the
  gathered rows scaled by their weights; neither touches any other array. Composing: the program's result is

      aggregate (targets e) (rows of (x · W) gathered by source, each scaled by its edge's weight) b.
-/
import proofs.«181490_j3607772529056_1_alg».proof.Proof.Gen.KernelIdeal.Frame
import proofs.«181490_j3607772529056_1_alg».proof.Proof.MatmulRegion
import proofs.«181490_j3607772529056_1_alg».proof.Proof.ScaleRegion
import proofs.«181490_j3607772529056_1_alg».proof.Proof.HostTerms
import Idealize.ShloMosaic.Lib.StableHlo.Run

set_option maxRecDepth 16384

noncomputable section

open Idealize.ShloMosaic Idealize.ShloMosaic.TcCoe Idealize.SL.Sem Idealize.ShloMosaic.StableHlo

namespace Cert.KernelIdeal.FoldRead

open Cert.KernelIdeal Cert.KernelIdeal.Gen Cert.KernelIdeal.HostTerms

/-! ## Each stretch of host operations, read from any entering contents -/

section Stretches

variable {F : FTy → Type} [FloatOps F]
variable (Wp : Valuation τ sig (Elt F))

/-- The stretches between the two calls leave, in the second call's first operand, the rows of the first call's result
    gathered by every edge's source node. -/
theorem gathered_rows :
    after hostOps1_2 (after hostOps1_1 (after hostOps1 Wp)) (Proc.devRef .tc main_v38)
      = gatherRows (Wp (Proc.devRef .tc main_v0)) (Wp (Proc.devRef .tc main_arg1)) := by
  dsimp only [hostOps1, hostOps1_1, hostOps1_2]
  after_results_simp <;> rfl

/-- They leave, in its second operand, the column of edge weights (the one inlined `where` reads and writes its buffers
    through typed references, which are the buffers themselves). -/
theorem weight_column :
    after hostOps1_2 (after hostOps1_1 (after hostOps1 Wp)) (Proc.devRef .tc main_v39)
      = weightColumn (Wp (Proc.devRef .tc main_arg1)) := by
  dsimp only [hostOps1, hostOps1_1, hostOps1_2]
  after_results_simp <;> (try simp only [TRef.ofBuf, TRef.toBuf, cast_eq]) <;> rfl

/-- They leave every edge's target node in the buffer the last stretch reads the targets from. -/
theorem target_ids :
    after hostOps1_2 (after hostOps1_1 (after hostOps1 Wp)) (Proc.devRef .tc main_v7)
      = targetIds (Wp (Proc.devRef .tc main_arg1)) := by
  dsimp only [hostOps1, hostOps1_1, hostOps1_2]
  after_results_simp <;> rfl

/-- They do not write the bias. -/
theorem bias_kept :
    after hostOps1_2 (after hostOps1_1 (after hostOps1 Wp)) (Proc.devRef .tc main_arg3) = Wp (Proc.devRef .tc main_arg3) := by
  dsimp only [hostOps1, hostOps1_1, hostOps1_2]
  after_results_simp

/-- The stretch after the second call sums that call's result into the target nodes' rows and adds the bias. -/
theorem aggregated :
    after hostOps2 Wp (Proc.devRef .tc main_v46)
      = aggregate (Wp (Proc.devRef .tc main_v7)) (Wp (Proc.devRef .tc main_v40)) (Wp (Proc.devRef .tc main_arg3)) := by
  dsimp only [hostOps2]
  after_results_simp <;> rfl

end Stretches

/-! ## The two calls' result arrays, and the arrays they leave alone -/

variable (m : (ℓ : Loc nD τ sig) → Buf (Elt Ideal) ℓ) (ρ : Dev nD → PrngReg)

/-- After the first call its result array is the product of the launch contents of x and W. -/
theorem product_left (c : Dev nD) :
    W1 m ρ c (Proc.devRef .tc main_v0)
      = MatmulRegion.rowsTimesCols (m ((c : Thread nD τ).loc main_arg0)) (m ((c : Thread nD τ).loc main_arg2)) :=
  (W1_arr m ρ c 2).trans (MatmulRegion.product_array (V0 m ρ) c)

/-- The first call does not touch the edge list, -/
theorem edges_kept (c : Dev nD) : W1 m ρ c (Proc.devRef .tc main_arg1) = m ((c : Thread nD τ).loc main_arg1) :=
  W1_of_ne m ρ c main_arg1 (by decide)

/-- nor the bias. -/
theorem bias_kept_first (c : Dev nD) : W1 m ρ c (Proc.devRef .tc main_arg3) = m ((c : Thread nD τ).loc main_arg3) :=
  W1_of_ne m ρ c main_arg3 (by decide)

/-- After the second call its result array is the gathered rows, each scaled by its edge's weight. -/
theorem scaled_left (c : Dev nD) :
    W5 m ρ c (Proc.devRef .tc main_v40)
      = ScaleRegion.rowsScaled (W4 m ρ c (Proc.devRef .tc main_v38)) (W4 m ρ c (Proc.devRef .tc main_v39)) :=
  (W5_arr m ρ c 2).trans (ScaleRegion.scaled_array (V4 m ρ) c)

/-- The second call does not touch the targets, -/
theorem targets_kept (c : Dev nD) : W5 m ρ c (Proc.devRef .tc main_v7) = W4 m ρ c (Proc.devRef .tc main_v7) :=
  W5_of_ne m ρ c main_v7 (by decide)

/-- nor the bias. -/
theorem bias_kept_second (c : Dev nD) : W5 m ρ c (Proc.devRef .tc main_arg3) = W4 m ρ c (Proc.devRef .tc main_arg3) :=
  W5_of_ne m ρ c main_arg3 (by decide)

/-! ## The program's result -/

/-- The contents the last boundary holds in the result buffer, as one function of the four arguments. -/
theorem result_value (c : Dev nD) :
    W6 m ρ c (Proc.devRef .tc main_v46)
      = aggregate (targetIds (m ((c : Thread nD τ).loc main_arg1)))
          (ScaleRegion.rowsScaled
            (gatherRows (MatmulRegion.rowsTimesCols (m ((c : Thread nD τ).loc main_arg0)) (m ((c : Thread nD τ).loc main_arg2)))
              (m ((c : Thread nD τ).loc main_arg1)))
            (weightColumn (m ((c : Thread nD τ).loc main_arg1))))
          (m ((c : Thread nD τ).loc main_arg3)) := by
  have h38 : W4 m ρ c (Proc.devRef .tc main_v38) = gatherRows (W1 m ρ c (Proc.devRef .tc main_v0)) (W1 m ρ c (Proc.devRef .tc main_arg1)) :=
    gathered_rows (W1 m ρ c)
  have h39 : W4 m ρ c (Proc.devRef .tc main_v39) = weightColumn (W1 m ρ c (Proc.devRef .tc main_arg1)) :=
    weight_column (W1 m ρ c)
  have h7 : W4 m ρ c (Proc.devRef .tc main_v7) = targetIds (W1 m ρ c (Proc.devRef .tc main_arg1)) :=
    target_ids (W1 m ρ c)
  have h3 : W4 m ρ c (Proc.devRef .tc main_arg3) = W1 m ρ c (Proc.devRef .tc main_arg3) :=
    bias_kept (W1 m ρ c)
  refine (aggregated (W5 m ρ c)).trans ?_
  rw [targets_kept, scaled_left, bias_kept_second, h38, h39, h7, h3, product_left, edges_kept, bias_kept_first]

end Cert.KernelIdeal.FoldRead

end
-- ==== Proof.Bridge.lean ====
/-
  The two programs compute one function.

  The reference spells the dense product as one host dot_general and the row scaling as a host multiply by the weight
  column broadcast along each row; the kernel program computes the first a block of rows at a time and the second a block
  of rows at a time. At the ideal values the entry (r, v) of either product is the sum ∑ q < 128, x (r, q) · W (q, v), and
  the entry (r, v) of either scaling is the gathered entry times the weight of row r: commutativity and associativity
  are not even needed, the two sides are the same expression entry by entry, so no input has to be finite. Everything else
  in the two programs is the same chain of host operations, carried here as named functions that are never opened.
-/
import proofs.«181490_j3607772529056_1_alg».proof.Proof.ReferenceRun
import proofs.«181490_j3607772529056_1_alg».proof.Proof.FoldRead
import proofs.«181490_j3607772529056_1_alg».proof.Proof.LibDotRowsCols
import Idealize.ShloMosaic.Lib.Pipeline.Value
import Idealize.ShloMosaic.Lib.ValueIdx

set_option maxRecDepth 16384

noncomputable section

open Idealize.ShloMosaic Idealize.ShloMosaic.TcCoe Idealize.SL.Sem Idealize.ShloMosaic.ValueIdx

namespace Cert.Bridge

open Cert.KernelIdeal.HostTerms Cert.Lib.DotRowsCols

/-- The reference's product has the rows-by-columns dimension numbers. -/
theorem whole_dims : RowsCols Cert.ReferenceIdeal.dot_S100000x128_S128x64_S100000x64_1_0_0_1_n_n := ⟨rfl, rfl, rfl, rfl, rfl, rfl⟩

/-- The product assembled from the ten row blocks is the host's one dot_general: entry by entry both are the sum over
    the shared axis. -/
theorem product_eq (x : FVec Ideal Cert.KernelIdeal.S100000x128 .f32) (w : FVec Ideal Cert.KernelIdeal.S128x64 .f32) :
    Cert.KernelIdeal.MatmulRegion.rowsTimesCols x w
      = Host.dotGeneral (F := Ideal) Cert.ReferenceIdeal.dot_S100000x128_S128x64_S100000x64_1_0_0_1_n_n none x w :=
  funext fun j => (whole_dims.dotGeneral_apply none x w j).symm

/-- Scaling every row by its weight is the host's multiply by the weight column broadcast along the rows. -/
theorem scaling_eq (g : FVec Ideal Cert.KernelIdeal.S1700000x64 .f32) (n : FVec Ideal Cert.KernelIdeal.S1700000x1 .f32) :
    Cert.KernelIdeal.ScaleRegion.rowsScaled g n
      = mulf g (broadcastInDim Cert.ReferenceIdeal.S1700000x64 ![0, 1] Cert.ReferenceIdeal.Facts₀.bcast_S1700000x1_S1700000x64_0_1 n) := by
  funext j
  rw [mulf_apply]
  refine congrArg (g j * ·) ?_
  refine (broadcastInDim_apply _ _ n j (ix2 (j 0) 0) fun a => ?_).symm
  match a with
  | ⟨0, _⟩ => exact (if_neg (show ¬ Cert.ReferenceIdeal.S1700000x1.size (0 : Fin 2) = 1 from by decide)).symm
  | ⟨1, _⟩ => exact (if_pos (show Cert.ReferenceIdeal.S1700000x1.size (1 : Fin 2) = 1 from by decide)).symm

/-- The reference's composed result term is the host-side functions of the graph convolution applied to its own dense
    product and its own broadcast multiply: the same operations on the same operands, under their names. -/
theorem reference_value (m' : (ℓ : Loc Cert.ReferenceIdeal.nD Cert.ReferenceIdeal.τ Cert.ReferenceIdeal.sig) → Buf (Elt Ideal) ℓ) (c : Dev Cert.ReferenceIdeal.nD) :
    Cert.ReferenceIdeal.ValueP.res_main_v47 m' c
      = aggregate (targetIds (m' ((c.tc : Thread Cert.ReferenceIdeal.nD Cert.ReferenceIdeal.τ).loc Cert.ReferenceIdeal.main_arg1)))
          (mulf
            (gatherRows
              (Host.dotGeneral (F := Ideal) (φ₁ := .f32) (φ₂ := .f32) Cert.ReferenceIdeal.dot_S100000x128_S128x64_S100000x64_1_0_0_1_n_n none
                (m' ((c.tc : Thread Cert.ReferenceIdeal.nD Cert.ReferenceIdeal.τ).loc Cert.ReferenceIdeal.main_arg0))
                (m' ((c.tc : Thread Cert.ReferenceIdeal.nD Cert.ReferenceIdeal.τ).loc Cert.ReferenceIdeal.main_arg2)))
              (m' ((c.tc : Thread Cert.ReferenceIdeal.nD Cert.ReferenceIdeal.τ).loc Cert.ReferenceIdeal.main_arg1)))
            (broadcastInDim Cert.ReferenceIdeal.S1700000x64 ![0, 1] Cert.ReferenceIdeal.Facts₀.bcast_S1700000x1_S1700000x64_0_1
              (weightColumn (m' ((c.tc : Thread Cert.ReferenceIdeal.nD Cert.ReferenceIdeal.τ).loc Cert.ReferenceIdeal.main_arg1)))))
          (m' ((c.tc : Thread Cert.ReferenceIdeal.nD Cert.ReferenceIdeal.τ).loc Cert.ReferenceIdeal.main_arg3)) := by
  unfold Cert.ReferenceIdeal.ValueP.res_main_v47
  rfl

end Cert.Bridge

end
-- ==== Proof.lean ====
/-
  A graph-convolution layer: out = segment_sum (xw[src] · norm[:, None], tgt) + b with xw = x · W, the edge list extended by
  one self loop per node, and norm the product of the two end nodes' 1/sqrt(degree).

  The kernel program computes xw in a pallas_call tiled over blocks of 10000 rows (bf16 operands, f32 accumulation) and
  the scaling of the gathered rows in a second pallas_call tiled over blocks of 20000 rows; the degrees, the weights, the
  gather and the final segment sum are the same host operations in both programs. At the ideal values a change of float
  format is the identity, a product accumulated into zero is the plain sum over the shared axis, and the row blocks tile
  the arrays, so the two calls leave exactly the reference's dot_general and the reference's broadcast multiply
  (Proof/MatmulRegion.lean, Proof/ScaleRegion.lean, Proof/Bridge.lean). The program's result buffer is read back through
  the host stretches to the arguments in Proof/FoldRead.lean. No law used here needs a finite input, so the precondition
  is never opened. Nothing was rewritten on the way to the idealized kernel: it is the kernel's own text read at the ideal values,
  so the statement that relates the two is the trivial one.
-/
import proofs.«181490_j3607772529056_1_alg».proof.Defs
import proofs.«181490_j3607772529056_1_alg».proof.Proof.Gen.Kernel
import proofs.«181490_j3607772529056_1_alg».proof.Proof.Gen.Kernel.Frame
import proofs.«181490_j3607772529056_1_alg».proof.Proof.Gen.KernelIdeal
import proofs.«181490_j3607772529056_1_alg».proof.Proof.Gen.KernelIdeal.Frame
import proofs.«181490_j3607772529056_1_alg».proof.Proof.Gen.ReferenceIdeal
import proofs.«181490_j3607772529056_1_alg».proof.Proof.Gen.Pre_finite_inputs
import proofs.«181490_j3607772529056_1_alg».proof.Proof.ReferenceRun
import proofs.«181490_j3607772529056_1_alg».proof.Proof.KernelRun
import proofs.«181490_j3607772529056_1_alg».proof.Proof.FoldRead
import proofs.«181490_j3607772529056_1_alg».proof.Proof.Bridge
import Idealize.ShloMosaic.Adequacy
import Idealize.ShloMosaic.Init

noncomputable section

namespace Cert.Proof

open Idealize.ShloMosaic Idealize.ShloMosaic.TcCoe Idealize.SL.Sem

/-- The kernel program, at the word level, runs to its end and leaves its arguments as they were. -/
theorem frame_kernel : Cert.frame_Kernel := fun m ρ _ => Cert.Kernel.Gen.frame m ρ

/-- So does its reading at the ideal values. -/
theorem frame_kernel_ideal : Cert.frame_KernelIdeal := fun m ρ _ => Cert.KernelIdeal.Gen.frame m ρ

/-- The reference is host operations only: its run, with the result dropped. -/
theorem frame_reference_ideal : Cert.frame_ReferenceIdeal := fun m ρ _ =>
  (θ_run Cert.ReferenceIdeal.defs _ _).mono (fun _ h c => (h c).2) (Cert.ReferenceIdeal.ValueP.run (F := Ideal) m ρ)

/-- From memories that agree on x, the edge list, W and b, both programs end with the same [100000, 64] array: the
    kernel program's result read back to its arguments is the reference's composed term, the blockwise product being the
    host's dot_general and the blockwise row scaling the host's broadcast multiply. -/
theorem algebraic : Cert.algebraic_KernelIdeal_ReferenceIdeal := by
  intro m ρ m' ρ' _ hagree
  refine ⟨fun c => Cert.KernelIdeal.Gen.W6 m ρ c (Proc.devRef .tc Cert.KernelIdeal.main_v46),
    Cert.KernelIdeal.GenRun.run_result (F := Ideal) m ρ, ?_⟩
  refine (θ_run Cert.ReferenceIdeal.defs _ _).mono (fun _ h c => ⟨(h c).1.trans ?_, (h c).2⟩)
    (Cert.ReferenceIdeal.ValueP.run (F := Ideal) m' ρ')
  show Cert.ReferenceIdeal.ValueP.res_main_v47 m' c = Cert.KernelIdeal.Gen.W6 m ρ c (Proc.devRef .tc Cert.KernelIdeal.main_v46)
  rw [Cert.Bridge.reference_value, Cert.KernelIdeal.FoldRead.result_value, Cert.Bridge.product_eq, Cert.Bridge.scaling_eq,
    (hagree c).1, (hagree c).2.1, (hagree c).2.2.1, (hagree c).2.2.2]

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, trivial, algebraic⟩

end Cert.Proof

end
